-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40x128 .f32) (main_arg10 : FVec F S40x128 .f32) (main_arg11 : FVec F S40 .f32) (main_v33 : IVec S_ 1) : IVec S_ 1 :=
  let main_v34 : FVec F S40x128 .f32 := Host.absf main_arg9
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40x128 .f32 := Host.absf main_arg10
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S40x128 .f32) (main_arg10 : FVec F S40x128 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S40x128 .f32) (main_arg10 : FVec F S40x128 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S128x40 : Shape := ⟨2, ![128, 40]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 82
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S40x128, .f32⟩
  | .hbm, ⟨10, _⟩ => ⟨S40x128, .f32⟩
  | .hbm, ⟨11, _⟩ => ⟨S40, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S128x40, .f32⟩
  | .hbm, ⟨79, _⟩ => ⟨S128x40, .f32⟩
  | .hbm, ⟨80, _⟩ => ⟨S1x40, .f32⟩
  | .hbm, ⟨81, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x40, .f32⟩
  | .local _ .vmem, ⟨23, _⟩ => ⟨S128x40, .f32⟩
  | .local _ .vmem, ⟨24, _⟩ => ⟨S1x40, .f32⟩
  | .local _ .vmem, ⟨25, _⟩ => ⟨S4000x40, .f32⟩
  | .local _ .vmem, ⟨26, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x40.size a ≤ S100000x40.size a
  hwx2_5 : ∀ i : grid2.Coords, EltTy.bits .f32 = 32 ∨ (Rect.block (s := S100000x40) S4000x40.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v20) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S4000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S40x128, .f32⟩
  | .hbm, ⟨10, _⟩ => ⟨S40x128, .f32⟩
  | .hbm, ⟨11, _⟩ => ⟨S40, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S128x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S128x40, .f32⟩
  | .hbm, ⟨93, _⟩ => ⟨S100000x40, .f32⟩
  | .hbm, ⟨94, _⟩ => ⟨S128x40, .f32⟩
  | .hbm, ⟨95, _⟩ => ⟨S100000x40, .f32⟩
  | .hbm, ⟨96, _⟩ => ⟨S100000x40, .f32⟩
  | .hbm, ⟨97, _⟩ => ⟨S1x40, .f32⟩
  | .hbm, ⟨98, _⟩ => ⟨S100000x40, .f32⟩
  | .hbm, ⟨99, _⟩ => ⟨S100000x40, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x40, .f32⟩
  | .hbm, ⟨107, _⟩ => ⟨S100000x40, .f32⟩
  | .hbm, ⟨108, _⟩ => ⟨S100000x40, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S100000x40, .f32⟩
  | .hbm, ⟨114, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_c_8 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_call2_cst_0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_cst_1 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_v71 : Ref sig .tc := ⟨.hbm, 114, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LibRowSoftmax.lean ====
/-
  More layers of a row-wise network read at an index, at the exact instance (floats read as extended reals): the
  plain matrix product (left operand m×k, right operand k×n), a bias row, and the logarithm of the softmax of each row.

  As in the row-wise layers these build on, every layer sends a matrix of m rows to a matrix of m rows and row r of
  the result reads row r of the matrix operands only, so a block of rows computed by the tiled spelling is the same rows
  of the whole-array spelling.
-/
import proofs.«160076_j23596550324897_1_alg».proof.Proof.LibRowLayers
import Idealize.ShloMosaic.PureOps.Reduce

noncomputable section

open scoped BigOperators

namespace RowLayers

open Idealize.ShloMosaic Idealize.ShloMosaic.ValueIdx

variable {m k n : ℕ}

/-! ## The plain product -/

/-- An m×k matrix times a k×n matrix on the matrix unit, accumulated into the zero splat, at (a, b): the sum over the
    contracted coordinate c of A(a, c) · B(c, b). Both this product and the host's are the sum over the contraction
    index of the dimension record, so the host's reading serves. -/
theorem matmulPlain_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  exact (Ideal.dotGeneral_apply (DotDims.plain m k n) prec _ A B (ix2 a b)).symm.trans
    (StackMember.dotGeneral_plain_apply prec A B a b)

/-- The sum of a row: a lane reduction along the columns from the zero word, read at row r. -/
theorem rowSum_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ x 0x00000000#32 hred hfmt hacc (ix1 r) = ∑ c : Fin k, x (ix2 r c) := by
  rw [Ideal.multiReduction_add_single]
  refine Finset.sum_congr rfl fun c _ => ?_
  rw [lift_cols]; rfl

/-- The largest entry of a row, as the fold of max from −∞ over the row's entries. -/
def rowMax (x : (⟨2, ![m, k]⟩ : Shape).Idx → EReal) (r : Fin m) : EReal :=
  (Finset.univ : Finset (Fin k)).fold max (Ideal.ofBits .f32 0xFF800000#32) (fun c => x (ix2 r c))

/-- A lane reduction with maximum along the columns from the word of −∞, read at row r, is the row's largest entry. -/
theorem rowMax_apply (hred : (⟨2, ![m, k]⟩ : Shape).Reduces [1] ⟨1, ![m]⟩) (hfmt : FKind.Formats FTy.f32)
    (hacc : (0xFF800000#32 : BitVec FTy.f32.bits) = FKind.maximumf.neutral .f32 hfmt)
    (x : FVec Ideal ⟨2, ![m, k]⟩ .f32) (r : Fin m) :
    multiReduction .maximumf [1] ⟨1, ![m]⟩ x 0xFF800000#32 hred hfmt hacc (ix1 r) = rowMax x r := by
  rw [Ideal.multiReduction_maximumf_single]
  have hf : (x ∘ hred.lift (ix1 r)) = fun c : Fin k => x (ix2 r c) := funext fun c => congrArg x (lift_cols hred r c)
  exact congrArg (fun f => Finset.fold max (Ideal.ofBits .f32 0xFF800000#32) f (Finset.univ : Finset (Fin k))) hf

/-- The host's sum of a row from the zero scalar, at row r. -/
theorem hostRowSum_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd X (constant (F := Ideal) ⟨0, ![]⟩ .f32 0x00000000#32) hrt hu (ix1 r) = ∑ c : Fin k, X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- −∞ is the least extended real: the larger of it and y is y. -/
theorem max_negInf (y : EReal) : max (Ideal.ofBits .f32 0xFF800000#32) y = y := by
  simp [Ideal.ofBits, Ideal.ieee]

/-- The host's reduce with a maximum body along the columns from the scalar −∞, at row r, is the row's largest entry. -/
theorem hostRowMax_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduce FloatOps.maximumf X (constant (F := Ideal) ⟨0, ![]⟩ .f32 0xFF800000#32) hrt hu (ix1 r) = rowMax X r := by
  rw [Host.reduce_eq_fold_single FloatOps.maximumf X _ hrt hred hu]
  have hf : (X ∘ hred.lift (ix1 r)) = fun c : Fin k => X (ix2 r c) := funext fun c => congrArg X (lift_cols hred r c)
  exact congrArg (fun f => Finset.fold max (Ideal.ofBits .f32 0xFF800000#32) f (Finset.univ : Finset (Fin k))) hf

/-! ## Rows of a block are rows of the whole, for these layers -/

section RowsLemmas

variable {mb M : ℕ} {σ : Fin mb → Fin M}

/-- The plain product: the tiled product on the matrix unit against the host's, the right operand shared. -/
theorem Rows.matmulPlain {k n : ℕ} {φ₁ φ₂ : FTy} (prec prec' : Option ContractPrecision)
    {x : FVec Ideal ⟨2, ![mb, k]⟩ φ₁} {X : FVec Ideal ⟨2, ![M, k]⟩ .f32} (hx : Rows σ x X)
    (w : FVec Ideal ⟨2, ![k, n]⟩ φ₂) (W : FVec Ideal ⟨2, ![k, n]⟩ .f32) (hw : ∀ i, w i = W i) :
    Rows σ (matmul (DotDims.plain mb k n) prec x w (constant ⟨2, ![mb, n]⟩ .f32 0x00000000#32))
      (Host.dotGeneral (DotDims.plain M k n) prec' X W) := fun p c => by
  rw [matmulPlain_apply, StackMember.dotGeneral_plain_apply]
  exact Finset.sum_congr rfl fun q _ => by rw [hx p q, hw]

/-- A bias row: one row (cast to its own shape) broadcast down the block against a vector made a row and broadcast
    down the whole matrix, when the row's entries are the vector's. -/
theorem Rows.biasRow {n : ℕ} (hsc : (⟨2, ![1, n]⟩ : Shape).ShapeCasts ⟨2, ![1, n]⟩)
    (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {v : (⟨2, ![1, n]⟩ : Shape).Idx → EReal} {b : (⟨1, ![n]⟩ : Shape).Idx → EReal}
    (hv : ∀ j : Fin n, v (ix2 (0 : Fin 1) j) = b (ix1 j)) :
    Rows σ (broadcastTo ⟨2, ![mb, n]⟩ (shapeCast ⟨2, ![1, n]⟩ v hsc) hbc)
      (broadcastInDim ⟨2, ![M, n]⟩ ![0, 1] h01 (broadcastInDim ⟨2, ![1, n]⟩ ![1] h1 b)) := fun p c => by
  rw [broadcastTo_1b_ab_apply, shapeCast_self, rowDown_apply, rowBroadcast_apply, hv]

/-- The same values in another float format, cast to their own shape. -/
theorem Rows.castSelf {k : ℕ} {φ : FTy} {a : FVec Ideal ⟨2, ![mb, k]⟩ φ} {A : (⟨2, ![M, k]⟩ : Shape).Idx → EReal}
    (h : (⟨2, ![mb, k]⟩ : Shape).ShapeCasts ⟨2, ![mb, k]⟩) (ha : Rows σ a A) :
    Rows σ (shapeCast ⟨2, ![mb, k]⟩ a h) A := by
  rw [shapeCast_self]; exact ha

/-- A row's largest entry is the same in the block and in the whole. -/
theorem Rows.rowMax_eq {k : ℕ} {y : (⟨2, ![mb, k]⟩ : Shape).Idx → EReal} {Y : (⟨2, ![M, k]⟩ : Shape).Idx → EReal}
    (hy : Rows σ y Y) (p : Fin mb) : rowMax y p = rowMax Y (σ p) := by
  unfold rowMax
  exact congrArg (fun f => Finset.fold max (Ideal.ofBits .f32 0xFF800000#32) f (Finset.univ : Finset (Fin k)))
    (funext fun c => hy p c)

end RowsLemmas

/-! ## The logarithm of the softmax of each row -/

section Whole

variable {F : FTy → Type} [FloatOps F] {M : ℕ}

/-- a · wl + x · wr + b: two plain products added, the bias vector added to every row. -/
abbrev Whole.combine {k n : ℕ} (h1 : (⟨1, ![n]⟩ : Shape).BroadcastsInDim ⟨2, ![1, n]⟩ ![1])
    (h01 : (⟨2, ![1, n]⟩ : Shape).BroadcastsInDim ⟨2, ![M, n]⟩ ![0, 1])
    (A X : FVec F ⟨2, ![M, k]⟩ .f32) (wl wr : FVec F ⟨2, ![k, n]⟩ .f32) (b : FVec F ⟨1, ![n]⟩ .f32) : FVec F ⟨2, ![M, n]⟩ .f32 :=
  addf (addf (Host.dotGeneral (DotDims.plain M k n) none A wl) (Host.dotGeneral (DotDims.plain M k n) none X wr))
    (broadcastInDim ⟨2, ![M, n]⟩ ![0, 1] h01 (broadcastInDim ⟨2, ![1, n]⟩ ![1] h1 b))

/-- y − max y, the row's largest entry taken by the host's reduce from −∞ and once more against −∞. -/
abbrev Whole.shifted {k : ℕ} (hrt : (⟨2, ![M, k]⟩ : Shape).ReducesTo [1] ⟨1, ![M]⟩) (hu : 0 < (⟨0, ![]⟩ : Shape).numel)
    (hs : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, k]⟩ ![0, 1])
    (Y : FVec F ⟨2, ![M, k]⟩ .f32) : FVec F ⟨2, ![M, k]⟩ .f32 :=
  subf Y (broadcastInDim ⟨2, ![M, k]⟩ ![0, 1] h01 (broadcastInDim ⟨2, ![M, 1]⟩ ![0] h0
    (maximumf (broadcastInDim ⟨1, ![M]⟩ ![] hs (constant (F := F) ⟨0, ![]⟩ .f32 0xFF800000#32))
      (Host.reduce FloatOps.maximumf Y (constant (F := F) ⟨0, ![]⟩ .f32 0xFF800000#32) hrt hu))))

/-- (y − max y) − log Σ exp (y − max y), row by row. -/
abbrev Whole.logSoftmax {k : ℕ} (hrt : (⟨2, ![M, k]⟩ : Shape).ReducesTo [1] ⟨1, ![M]⟩) (hu : 0 < (⟨0, ![]⟩ : Shape).numel)
    (hs : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, k]⟩ ![0, 1])
    (Y : FVec F ⟨2, ![M, k]⟩ .f32) : FVec F ⟨2, ![M, k]⟩ .f32 :=
  subf (Whole.shifted hrt hu hs h0 h01 Y)
    (broadcastInDim ⟨2, ![M, k]⟩ ![0, 1] h01 (Host.log (broadcastInDim ⟨2, ![M, 1]⟩ ![0] h0
      (Host.reduceAdd (Host.exp (Whole.shifted hrt hu hs h0 h01 Y)) (constant (F := F) ⟨0, ![]⟩ .f32 0x00000000#32) hrt hu))))

end Whole

section SoftmaxRows

variable {mb M : ℕ} {σ : Fin mb → Fin M}

/-- Subtracting the row's largest entry: the lane reduction, a cast to a column and a broadcast along the row against
    the host's reduce and two broadcasts. -/
theorem Rows.shifted {k : ℕ}
    (hred : (⟨2, ![mb, k]⟩ : Shape).Reduces [1] ⟨1, ![mb]⟩) (hfmt : FKind.Formats FTy.f32)
    (hacc : (0xFF800000#32 : BitVec FTy.f32.bits) = FKind.maximumf.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel) (hs : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, k]⟩ ![0, 1])
    {y : FVec Ideal ⟨2, ![mb, k]⟩ .f32} {Y : FVec Ideal ⟨2, ![M, k]⟩ .f32} (hy : Rows σ y Y) :
    Rows σ
      (Idealize.ShloMosaic.subf y (broadcastTo ⟨2, ![mb, k]⟩
        (shapeCast ⟨2, ![mb, 1]⟩ (multiReduction .maximumf [1] ⟨1, ![mb]⟩ y 0xFF800000#32 hred hfmt hacc) hsc) hbc))
      (Whole.shifted (F := Ideal) hrt hu hs h0 h01 Y) := fun p c => by
  rw [subf_apply, broadcastColumn_apply, column_apply, rowMax_apply]
  show _ = Y _ - broadcastInDim _ _ h01 _ _
  rw [columnAcross_apply, columnBroadcast_apply, maximumf_apply, scalarBroadcast_apply, hostRowMax_apply hrt hRed,
    max_negInf, hy p c, Rows.rowMax_eq hy p]

/-- The logarithm of the softmax of each row. -/
theorem Rows.logSoftmax {k : ℕ}
    (hred : (⟨2, ![mb, k]⟩ : Shape).Reduces [1] ⟨1, ![mb]⟩) (hfmt : FKind.Formats FTy.f32)
    (hacc : (0xFF800000#32 : BitVec FTy.f32.bits) = FKind.maximumf.neutral .f32 hfmt)
    (hacc0 : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel) (hs : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, k]⟩ ![0, 1])
    {y : FVec Ideal ⟨2, ![mb, k]⟩ .f32} {Y : FVec Ideal ⟨2, ![M, k]⟩ .f32} (hy : Rows σ y Y) :
    Rows σ
      (Idealize.ShloMosaic.subf
        (Idealize.ShloMosaic.subf y (broadcastTo ⟨2, ![mb, k]⟩
          (shapeCast ⟨2, ![mb, 1]⟩ (multiReduction .maximumf [1] ⟨1, ![mb]⟩ y 0xFF800000#32 hred hfmt hacc) hsc) hbc))
        (broadcastTo ⟨2, ![mb, k]⟩ (log (shapeCast ⟨2, ![mb, 1]⟩
          (multiReduction .add [1] ⟨1, ![mb]⟩
            (exp (Idealize.ShloMosaic.subf y (broadcastTo ⟨2, ![mb, k]⟩
              (shapeCast ⟨2, ![mb, 1]⟩ (multiReduction .maximumf [1] ⟨1, ![mb]⟩ y 0xFF800000#32 hred hfmt hacc) hsc) hbc)))
            0x00000000#32 hred hfmt hacc0) hsc)) hbc))
      (Whole.logSoftmax (F := Ideal) hrt hu hs h0 h01 Y) := fun p c => by
  have hz := Rows.shifted hred hfmt hacc hsc hbc hrt hRed hu hs h0 h01 hy
  rw [subf_apply, hz p c, broadcastColumn_apply]
  show _ - Ideal.log (shapeCast _ _ hsc (ix2 p (0 : Fin 1))) = _ - broadcastInDim _ _ h01 _ _
  rw [column_apply, rowSum_apply, columnAcross_apply]
  show _ = _ - Ideal.log (broadcastInDim _ _ h0 _ _)
  rw [columnBroadcast_apply, hostRowSum_apply hrt hRed]
  refine congrArg (fun s => _ - Ideal.log s) (Finset.sum_congr rfl fun q _ => ?_)
  exact congrArg Ideal.exp (hz p q)

end SoftmaxRows

end RowLayers

end
-- ==== Proof.Payload.lean ====
/-
  What each of the three layer kernels stores, read row by row.

  Every kernel takes a block of 4000 rows of the aggregated neighbour features and the same rows of the node features,
  the two weight matrices whole, and the bias as one row. It narrows the operands (the identity on extended reals),
  multiplies on the matrix unit into a zero accumulator, adds the two products and the bias row, and then takes the
  larger of each entry and zero (layers one and two) or the logarithm of each row's softmax (layer three). Each of
  these steps reads, in row r of its result, row r of its matrix operands only: so if the two blocks are rows σ of two
  whole matrices, the stored block is rows σ of the whole-array layer applied to those matrices.
-/
import proofs.«160076_j23596550324897_1_alg».proof.Proof.Gen.KernelIdeal
import proofs.«160076_j23596550324897_1_alg».proof.Proof.Gen.KernelIdeal.Skeleton
import proofs.«160076_j23596550324897_1_alg».proof.Proof.LibRowSoftmax

noncomputable section

namespace Cert.KernelIdeal.Layers

open Cert.KernelIdeal Cert.KernelIdeal.Gen Idealize.ShloMosaic Idealize.ShloMosaic.TcCoe Idealize.ShloMosaic.ValueIdx RowLayers

variable {M : ℕ} {σ : Fin 4000 → Fin M}

/-- A narrowed weight matrix, cast to its own shape, is the weight matrix. -/
theorem narrowed_self {s : Shape} (w : FVec Ideal s .f32) (h : s.ShapeCasts s) (h16 : FTy.bits .bf16 < FTy.bits .f32)
    (i : s.Idx) : (truncf .bf16 (shapeCast s w h) h16 : FVec Ideal s .bf16) i = w i :=
  congrFun (shapeCast_self w h) i

/-- Layer one's stored block: rows σ of max(A · wl + X · wr + b, 0). -/
theorem pay0_rows (x0 x1 : Vec Ideal S4000x128 .f32) (w0 w1 : Vec Ideal S128x128 .f32) (bb : Vec Ideal S1x128 .f32)
    (A X : FVec Ideal ⟨2, ![M, 128]⟩ .f32) (b : FVec Ideal ⟨1, ![128]⟩ .f32)
    (h1 : (⟨1, ![128]⟩ : Shape).BroadcastsInDim ⟨2, ![1, 128]⟩ ![1])
    (h01 : (⟨2, ![1, 128]⟩ : Shape).BroadcastsInDim ⟨2, ![M, 128]⟩ ![0, 1])
    (hz : (⟨0, ![]⟩ : Shape).BroadcastsInDim ⟨2, ![M, 128]⟩ ![])
    (hA : Rows σ x0 A) (hX : Rows σ x1 X) (hb : ∀ j : Fin 128, bb (ix2 (0 : Fin 1) j) = b (ix1 j)) :
    Rows σ (k0_pay1 x0 x1 w0 w1 bb) (Whole.relu hz (Whole.combine h1 h01 A X w0 w1 b)) := by
  unfold k0_pay1
  exact Rows.relu hz (Rows.addf
    (Rows.addf
      (Rows.matmulPlain none none (Rows.truncf _ (Rows.castSelf (φ := .f32) _ hA)) _ w0 (narrowed_self w0 _ _))
      (Rows.matmulPlain none none (Rows.truncf _ hX) _ w1 (narrowed_self w1 _ _)))
    (Rows.biasRow _ _ h1 h01 hb))

/-- Layer two's stored block: the same layer, on the first layer's result. -/
theorem pay1_rows (x0 x1 : Vec Ideal S4000x128 .f32) (w0 w1 : Vec Ideal S128x128 .f32) (bb : Vec Ideal S1x128 .f32)
    (A X : FVec Ideal ⟨2, ![M, 128]⟩ .f32) (b : FVec Ideal ⟨1, ![128]⟩ .f32)
    (h1 : (⟨1, ![128]⟩ : Shape).BroadcastsInDim ⟨2, ![1, 128]⟩ ![1])
    (h01 : (⟨2, ![1, 128]⟩ : Shape).BroadcastsInDim ⟨2, ![M, 128]⟩ ![0, 1])
    (hz : (⟨0, ![]⟩ : Shape).BroadcastsInDim ⟨2, ![M, 128]⟩ ![])
    (hA : Rows σ x0 A) (hX : Rows σ x1 X) (hb : ∀ j : Fin 128, bb (ix2 (0 : Fin 1) j) = b (ix1 j)) :
    Rows σ (k1_pay1 x0 x1 w0 w1 bb) (Whole.relu hz (Whole.combine h1 h01 A X w0 w1 b)) := by
  unfold k1_pay1
  exact Rows.relu hz (Rows.addf
    (Rows.addf
      (Rows.matmulPlain none none (Rows.truncf _ (Rows.castSelf (φ := .f32) _ hA)) _ w0 (narrowed_self w0 _ _))
      (Rows.matmulPlain none none (Rows.truncf _ (Rows.castSelf (φ := .f32) _ hX)) _ w1 (narrowed_self w1 _ _)))
    (Rows.biasRow _ _ h1 h01 hb))

/-- Layer three's stored block: rows σ of the logarithm of the row softmax of A · wl + X · wr + b. -/
theorem pay2_rows (x0 x1 : Vec Ideal S4000x128 .f32) (w0 w1 : Vec Ideal S128x40 .f32) (bb : Vec Ideal S1x40 .f32)
    (A X : FVec Ideal ⟨2, ![M, 128]⟩ .f32) (b : FVec Ideal ⟨1, ![40]⟩ .f32)
    (h1 : (⟨1, ![40]⟩ : Shape).BroadcastsInDim ⟨2, ![1, 40]⟩ ![1])
    (h01 : (⟨2, ![1, 40]⟩ : Shape).BroadcastsInDim ⟨2, ![M, 40]⟩ ![0, 1])
    (hrt : (⟨2, ![M, 40]⟩ : Shape).ReducesTo [1] ⟨1, ![M]⟩) (hRed : (⟨2, ![M, 40]⟩ : Shape).Reduces [1] ⟨1, ![M]⟩)
    (hu : 0 < (⟨0, ![]⟩ : Shape).numel) (hs : (⟨0, ![]⟩ : Shape).BroadcastsInDim ⟨1, ![M]⟩ ![])
    (h0 : (⟨1, ![M]⟩ : Shape).BroadcastsInDim ⟨2, ![M, 1]⟩ ![0])
    (hc : (⟨2, ![M, 1]⟩ : Shape).BroadcastsInDim ⟨2, ![M, 40]⟩ ![0, 1])
    (hA : Rows σ x0 A) (hX : Rows σ x1 X) (hb : ∀ j : Fin 40, bb (ix2 (0 : Fin 1) j) = b (ix1 j)) :
    Rows σ (k2_pay1 x0 x1 w0 w1 bb) (Whole.logSoftmax hrt hu hs h0 hc (Whole.combine h1 h01 A X w0 w1 b)) := by
  unfold k2_pay1
  exact Rows.logSoftmax _ _ _ _ _ _ hrt hRed hu hs h0 hc (Rows.addf
    (Rows.addf
      (Rows.matmulPlain none none (Rows.truncf _ (Rows.castSelf (φ := .f32) _ hA)) _ w0 (narrowed_self w0 _ _))
      (Rows.matmulPlain none none (Rows.truncf _ (Rows.castSelf (φ := .f32) _ hX)) _ w1 (narrowed_self w1 _ _)))
    (Rows.biasRow _ _ h1 h01 hb))

end Cert.KernelIdeal.Layers

end
-- ==== Proof.HostFacts.lean ====
/-
  Shape facts of the whole-array layers: which broadcasts and reductions over the 100000-row matrices are well-formed.
-/
import proofs.«160076_j23596550324897_1_alg».proof.KernelIdeal

noncomputable section

namespace Cert.KernelIdeal.Layers

open Cert.KernelIdeal Idealize.ShloMosaic

theorem hf_b1_128 : S128.BroadcastsInDim S1x128 (![1] : Fin 1 → Fin S1x128.rank) := by decide
theorem hf_b01_128 : S1x128.BroadcastsInDim S100000x128 (![0, 1] : Fin 2 → Fin S100000x128.rank) := by decide
theorem hf_bz_128 : S_.BroadcastsInDim S100000x128 (![] : Fin 0 → Fin S100000x128.rank) := by decide
theorem hf_b1_40 : S40.BroadcastsInDim S1x40 (![1] : Fin 1 → Fin S1x40.rank) := by decide
theorem hf_b01_40 : S1x40.BroadcastsInDim S100000x40 (![0, 1] : Fin 2 → Fin S100000x40.rank) := by decide
theorem hf_rt : S100000x40.ReducesTo [1] S100000 := by decide
theorem hf_red : S100000x40.Reduces [1] S100000 := by decide
theorem hf_u : 0 < S_.numel := by decide
theorem hf_bs : S_.BroadcastsInDim S100000 (![] : Fin 0 → Fin S100000.rank) := by decide
theorem hf_b0 : S100000.BroadcastsInDim S100000x1 (![0] : Fin 1 → Fin S100000x1.rank) := by decide
theorem hf_bc : S100000x1.BroadcastsInDim S100000x40 (![0, 1] : Fin 2 → Fin S100000x40.rank) := by decide

end Cert.KernelIdeal.Layers

end
-- ==== Proof.Region0.lean ====
/-
  Layer one's output array after its region: max(agg · Wlᵀ + x · Wrᵀ + b, 0) of the arrays the region found.

  Point t of the 25 grid points fetches rows 4000 t … 4000 t + 3999 of the two row-matrices and the weights and the
  bias whole, and writes back rows 4000 t … 4000 t + 3999 of the output. Its stored block is the same rows of the
  whole-array layer (the payload read row by row); the 25 blocks tile the output; so the output array ends holding the
  whole-array layer of the arrays the region found. Stated for any entry contents V.
-/
import proofs.«160076_j23596550324897_1_alg».proof.Proof.Gen.KernelIdeal.Frame
import proofs.«160076_j23596550324897_1_alg».proof.Proof.Payload
import proofs.«160076_j23596550324897_1_alg».proof.Proof.HostFacts
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx RowLayers
open Idealize.SL.Sem
open Idealize.ShloMosaic.Pipeline (Dat)

theorem hz0 : (![0, 0] : Fin 2 → Nat) = fun _ => 0 := funext fun a => by fin_cases a <;> rfl

/-! ## Layer 1 (pallas_call 0) -/

section Region0

variable (V : (c : Dev nD) → (b : Ref sig .tc) → Buf (Elt Ideal) ((c : Thread nD τ).loc b))

/-- The printed index maps over the 25 grid points: the row blocks (both inputs and the output) sit at block row t,
    block column 0; the weights and the bias at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Grid point t's rows of a 100000-row matrix: 4000 t + p. -/
def rowOf0 (t : Fin cfg0.N) (p : Fin 4000) : Fin 100000 :=
  ⟨4000 * t.val + p.val, by have ht : t.val < 25 := lt_of_lt_of_eq t.isLt N_0; have := p.isLt; omega⟩

/-- The first input's block at point t is rows 4000 t … 4000 t + 3999 of its array. -/
theorem rows0_0 (c : Dev nD) (t : Fin cfg0.N) :
    Rows (rowOf0 t) (iblk0 V c 0 t : Vec Ideal S4000x128 .f32) (V c main_v20 : FVec Ideal S100000x128 .f32) := fun p k => by
  obtain ⟨e0, e1, -⟩ := idx_facts0 t
  show V c main_v20 (((cfg0.win 0).blk t).view.emb (ix2 p k)) = V c main_v20 (ix2 (rowOf0 t p) k)
  refine congrArg (V c main_v20) (funext fun a => Fin.ext ?_)
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- The second input's block likewise. -/
theorem rows0_1 (c : Dev nD) (t : Fin cfg0.N) :
    Rows (rowOf0 t) (iblk0 V c 1 t : Vec Ideal S4000x128 .f32) (V c main_arg0 : FVec Ideal S100000x128 .f32) := fun p k => by
  obtain ⟨-, -, e0, e1, -⟩ := idx_facts0 t
  show V c main_arg0 (((cfg0.win 1).blk t).view.emb (ix2 p k)) = V c main_arg0 (ix2 (rowOf0 t p) k)
  refine congrArg (V c main_arg0) (funext fun a => Fin.ext ?_)
  match a with
  | ⟨0, _⟩ => show win0_1.index t (0 : Fin 2) * 4000 + 1 * p.val = 4000 * t.val + p.val; rw [e0]; omega
  | ⟨1, _⟩ => show win0_1.index t (1 : Fin 2) * 128 + 1 * k.val = k.val; rw [e1]; omega

/-- The weight blocks are the weight arrays, whole. -/
theorem whole0_2 (c : Dev nD) (t : Fin cfg0.N) : (iblk0 V c 2 t : Vec Ideal S128x128 .f32) = V c main_v21 := funext fun y => by
  obtain ⟨-, -, -, -, e0, e1, -⟩ := idx_facts0 t
  show V c main_v21 (((cfg0.win 2).blk t).view.emb y) = V c main_v21 y
  refine congrArg (V c main_v21) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem whole0_3 (c : Dev nD) (t : Fin cfg0.N) : (iblk0 V c 3 t : Vec Ideal S128x128 .f32) = V c main_v22 := funext fun y => by
  obtain ⟨-, -, -, -, -, -, e0, e1, -⟩ := idx_facts0 t
  show V c main_v22 (((cfg0.win 3).blk t).view.emb y) = V c main_v22 y
  refine congrArg (V c main_v22) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias block is the bias row, whole. -/
theorem whole0_4 (c : Dev nD) (t : Fin cfg0.N) : (iblk0 V c 4 t : Vec Ideal S1x128 .f32) = V c main_v23 := funext fun y => by
  obtain ⟨-, -, -, -, -, -, -, -, e0, e1, -⟩ := idx_facts0 t
  show V c main_v23 (((cfg0.win 4).blk t).view.emb y) = V c main_v23 y
  refine congrArg (V c main_v23) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The layer on whole arrays, at the region's entry contents. -/
abbrev layer0 (c : Dev nD) (b : FVec Ideal S128 .f32) : FVec Ideal S100000x128 .f32 :=
  Whole.relu hf_bz_128 (Whole.combine hf_b1_128 hf_b01_128 (V c main_v20) (V c main_arg0) (V c main_v21) (V c main_v22) b)

/-- What point t writes back is block t of the whole-array layer. -/
theorem flushed0_eq (c : Dev nD) (b : FVec Ideal S128 .f32)
    (hb : ∀ j : Fin 128, (V c main_v23 : FVec Ideal S1x128 .f32) (ix2 (0 : Fin 1) j) = b (ix1 j)) (t : Fin cfg0.N) :
    (dat0 V c).flushed 5 t = ((cfg0.win 5).blk t).view.read (Elt Ideal) (layer0 V c b) := by
  show (cfg0.win 5).cut (grid0.coords t) ((dat0 V c).after 5 t) = _
  rw [after0_5]
  unfold out0_5
  rw [View.canon_unit_zero hz0]
  simp only [View.ld_unit_zero (S := S4000x128) hz0, View.ld_unit_zero (S := S128x128) hz0, View.ld_unit_zero (S := S1x128) hz0]
  rw [whole0_2, whole0_3, whole0_4]
  obtain ⟨-, -, -, -, -, -, -, -, -, -, e0, e1⟩ := idx_facts0 t
  funext j
  obtain ⟨p, q, rfl⟩ : ∃ (p : Fin 4000) (q : Fin 128), j = ix2 p q := ⟨j 0, j 1, eq_ix2 j⟩
  refine (pay0_rows (iblk0 V c 0 t) (iblk0 V c 1 t) (V c main_v21) (V c main_v22) (V c main_v23) (V c main_v20) (V c main_arg0) b hf_b1_128 hf_b01_128 hf_bz_128 (rows0_0 V c t) (rows0_1 V c t) hb p q).trans ?_
  show layer0 V c b (ix2 (rowOf0 t p) q) = layer0 V c b (((cfg0.win 5).blk t).view.emb (ix2 p q))
  refine congrArg (layer0 V c b) (funext fun a => Fin.ext ?_)
  match a with
  | ⟨0, _⟩ => show 4000 * t.val + p.val = win0_5.index t (0 : Fin 2) * 4000 + 1 * p.val; rw [e0]; omega
  | ⟨1, _⟩ => show q.val = win0_5.index t (1 : Fin 2) * 128 + 1 * q.val; rw [e1]; omega

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- The 25 blocks of 4000 rows cover the output array: row r is in the block of point r / 4000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 4000, by rw [show cfg0.N = 25 from N_0]; omega⟩, flush0_5 _, ?_⟩
  rw [mem_blk0]
  obtain ⟨-, -, -, -, -, -, -, -, -, -, e0, e1⟩ := idx_facts0 ⟨(i 0).val / 4000, by rw [show cfg0.N = 25 from N_0]; omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [e1]; omega

/-- The output array after the region: the whole-array layer of the region's entry contents. -/
theorem final0 (c : Dev nD) (b : FVec Ideal S128 .f32)
    (hb : ∀ j : Fin 128, (V c main_v23 : FVec Ideal S1x128 .f32) (ix2 (0 : Fin 1) j) = b (ix1 j)) :
    (dat0 V c).arrAt 5 cfg0.N = layer0 V c b :=
  (dat0 V c).arrAt_eq_of_cover 5 (layer0 V c b) (fun t _ => flushed0_eq V c b hb t) (cover0)

end Region0

end Cert.KernelIdeal.Layers

end
-- ==== Proof.Region1.lean ====
/- Layer two's output array after its region: max(agg · Wlᵀ + h · Wrᵀ + b, 0) of the arrays the region found, the same argument as for layer one. -/
import proofs.«160076_j23596550324897_1_alg».proof.Proof.Gen.KernelIdeal.Frame
import proofs.«160076_j23596550324897_1_alg».proof.Proof.Payload
import proofs.«160076_j23596550324897_1_alg».proof.Proof.HostFacts
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx RowLayers
open Idealize.SL.Sem
open Idealize.ShloMosaic.Pipeline (Dat)

theorem hz1 : (![0, 0] : Fin 2 → Nat) = fun _ => 0 := funext fun a => by fin_cases a <;> rfl

/-! ## Layer 2 (pallas_call 1) -/

section Region1

variable (V : (c : Dev nD) → (b : Ref sig .tc) → Buf (Elt Ideal) ((c : Thread nD τ).loc b))

/-- The printed index maps over the 25 grid points: the row blocks (both inputs and the output) sit at block row t,
    block column 0; the weights and the bias at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Grid point t's rows of a 100000-row matrix: 4000 t + p. -/
def rowOf1 (t : Fin cfg1.N) (p : Fin 4000) : Fin 100000 :=
  ⟨4000 * t.val + p.val, by have ht : t.val < 25 := lt_of_lt_of_eq t.isLt N_1; have := p.isLt; omega⟩

/-- The first input's block at point t is rows 4000 t … 4000 t + 3999 of its array. -/
theorem rows1_0 (c : Dev nD) (t : Fin cfg1.N) :
    Rows (rowOf1 t) (iblk1 V c 0 t : Vec Ideal S4000x128 .f32) (V c main_v36 : FVec Ideal S100000x128 .f32) := fun p k => by
  obtain ⟨e0, e1, -⟩ := idx_facts1 t
  show V c main_v36 (((cfg1.win 0).blk t).view.emb (ix2 p k)) = V c main_v36 (ix2 (rowOf1 t p) k)
  refine congrArg (V c main_v36) (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 128 + 1 * k.val = k.val; rw [e1]; omega

/-- The second input's block likewise. -/
theorem rows1_1 (c : Dev nD) (t : Fin cfg1.N) :
    Rows (rowOf1 t) (iblk1 V c 1 t : Vec Ideal S4000x128 .f32) (V c main_v24 : FVec Ideal S100000x128 .f32) := fun p k => by
  obtain ⟨-, -, e0, e1, -⟩ := idx_facts1 t
  show V c main_v24 (((cfg1.win 1).blk t).view.emb (ix2 p k)) = V c main_v24 (ix2 (rowOf1 t p) k)
  refine congrArg (V c main_v24) (funext fun a => Fin.ext ?_)
  match a with
  | ⟨0, _⟩ => show win1_1.index t (0 : Fin 2) * 4000 + 1 * p.val = 4000 * t.val + p.val; rw [e0]; omega
  | ⟨1, _⟩ => show win1_1.index t (1 : Fin 2) * 128 + 1 * k.val = k.val; rw [e1]; omega

/-- The weight blocks are the weight arrays, whole. -/
theorem whole1_2 (c : Dev nD) (t : Fin cfg1.N) : (iblk1 V c 2 t : Vec Ideal S128x128 .f32) = V c main_v37 := funext fun y => by
  obtain ⟨-, -, -, -, e0, e1, -⟩ := idx_facts1 t
  show V c main_v37 (((cfg1.win 2).blk t).view.emb y) = V c main_v37 y
  refine congrArg (V c main_v37) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem whole1_3 (c : Dev nD) (t : Fin cfg1.N) : (iblk1 V c 3 t : Vec Ideal S128x128 .f32) = V c main_v38 := funext fun y => by
  obtain ⟨-, -, -, -, -, -, e0, e1, -⟩ := idx_facts1 t
  show V c main_v38 (((cfg1.win 3).blk t).view.emb y) = V c main_v38 y
  refine congrArg (V c main_v38) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias block is the bias row, whole. -/
theorem whole1_4 (c : Dev nD) (t : Fin cfg1.N) : (iblk1 V c 4 t : Vec Ideal S1x128 .f32) = V c main_v39 := funext fun y => by
  obtain ⟨-, -, -, -, -, -, -, -, e0, e1, -⟩ := idx_facts1 t
  show V c main_v39 (((cfg1.win 4).blk t).view.emb y) = V c main_v39 y
  refine congrArg (V c main_v39) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The layer on whole arrays, at the region's entry contents. -/
abbrev layer1 (c : Dev nD) (b : FVec Ideal S128 .f32) : FVec Ideal S100000x128 .f32 :=
  Whole.relu hf_bz_128 (Whole.combine hf_b1_128 hf_b01_128 (V c main_v36) (V c main_v24) (V c main_v37) (V c main_v38) b)

/-- What point t writes back is block t of the whole-array layer. -/
theorem flushed1_eq (c : Dev nD) (b : FVec Ideal S128 .f32)
    (hb : ∀ j : Fin 128, (V c main_v39 : FVec Ideal S1x128 .f32) (ix2 (0 : Fin 1) j) = b (ix1 j)) (t : Fin cfg1.N) :
    (dat1 V c).flushed 5 t = ((cfg1.win 5).blk t).view.read (Elt Ideal) (layer1 V c b) := by
  show (cfg1.win 5).cut (grid1.coords t) ((dat1 V c).after 5 t) = _
  rw [after1_5]
  unfold out1_5
  rw [View.canon_unit_zero hz1]
  simp only [View.ld_unit_zero (S := S4000x128) hz1, View.ld_unit_zero (S := S128x128) hz1, View.ld_unit_zero (S := S1x128) hz1]
  rw [whole1_2, whole1_3, whole1_4]
  obtain ⟨-, -, -, -, -, -, -, -, -, -, e0, e1⟩ := idx_facts1 t
  funext j
  obtain ⟨p, q, rfl⟩ : ∃ (p : Fin 4000) (q : Fin 128), j = ix2 p q := ⟨j 0, j 1, eq_ix2 j⟩
  refine (pay1_rows (iblk1 V c 0 t) (iblk1 V c 1 t) (V c main_v37) (V c main_v38) (V c main_v39) (V c main_v36) (V c main_v24) b hf_b1_128 hf_b01_128 hf_bz_128 (rows1_0 V c t) (rows1_1 V c t) hb p q).trans ?_
  show layer1 V c b (ix2 (rowOf1 t p) q) = layer1 V c b (((cfg1.win 5).blk t).view.emb (ix2 p q))
  refine congrArg (layer1 V c b) (funext fun a => Fin.ext ?_)
  match a with
  | ⟨0, _⟩ => show 4000 * t.val + p.val = win1_5.index t (0 : Fin 2) * 4000 + 1 * p.val; rw [e0]; omega
  | ⟨1, _⟩ => show q.val = win1_5.index t (1 : Fin 2) * 128 + 1 * q.val; rw [e1]; omega

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v40).slice (win1_5.rect t)).set ↔ _
  rw [View.set_slice_whole, Rect.mem_set_unit]
  exact Iff.rfl

/-- The 25 blocks of 4000 rows cover the output array: row r is in the block of point r / 4000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 4000, by rw [show cfg1.N = 25 from N_1]; omega⟩, flush1_5 _, ?_⟩
  rw [mem_blk1]
  obtain ⟨-, -, -, -, -, -, -, -, -, -, e0, e1⟩ := idx_facts1 ⟨(i 0).val / 4000, by rw [show cfg1.N = 25 from N_1]; omega⟩
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e1]; omega

/-- The output array after the region: the whole-array layer of the region's entry contents. -/
theorem final1 (c : Dev nD) (b : FVec Ideal S128 .f32)
    (hb : ∀ j : Fin 128, (V c main_v39 : FVec Ideal S1x128 .f32) (ix2 (0 : Fin 1) j) = b (ix1 j)) :
    (dat1 V c).arrAt 5 cfg1.N = layer1 V c b :=
  (dat1 V c).arrAt_eq_of_cover 5 (layer1 V c b) (fun t _ => flushed1_eq V c b hb t) (cover1)

end Region1

end Cert.KernelIdeal.Layers

end
-- ==== Proof.Region2.lean ====
/-
  Layer three's output array after its region: the logarithm of the row softmax of agg · Wlᵀ + h · Wrᵀ + b, of the arrays the region found.

  Point t of the 25 grid points fetches rows 4000 t … 4000 t + 3999 of the two row-matrices and the weights and the
  bias whole, and writes back rows 4000 t … 4000 t + 3999 of the output. Its stored block is the same rows of the
  whole-array layer (the payload read row by row); the 25 blocks tile the output; so the output array ends holding the
  whole-array layer of the arrays the region found. Stated for any entry contents V.
-/
import proofs.«160076_j23596550324897_1_alg».proof.Proof.Gen.KernelIdeal.Frame
import proofs.«160076_j23596550324897_1_alg».proof.Proof.Payload
import proofs.«160076_j23596550324897_1_alg».proof.Proof.HostFacts
import Idealize.ShloMosaic.Lib.Pipeline.Value

set_option maxRecDepth 16384

noncomputable section

namespace Cert.KernelIdeal.Layers

open Cert.KernelIdeal Cert.KernelIdeal.Gen Idealize.ShloMosaic Idealize.ShloMosaic.TcCoe Idealize.ShloMosaic.ValueIdx RowLayers
open Idealize.SL.Sem
open Idealize.ShloMosaic.Pipeline (Dat)

theorem hz2 : (![0, 0] : Fin 2 → Nat) = fun _ => 0 := funext fun a => by fin_cases a <;> rfl

/-! ## Layer 3 (pallas_call 2) -/

section Region2

variable (V : (c : Dev nD) → (b : Ref sig .tc) → Buf (Elt Ideal) ((c : Thread nD τ).loc b))

/-- The printed index maps over the 25 grid points: the row blocks (both inputs and the output) sit at block row t,
    block column 0; the weights and the bias at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Grid point t's rows of a 100000-row matrix: 4000 t + p. -/
def rowOf2 (t : Fin cfg2.N) (p : Fin 4000) : Fin 100000 :=
  ⟨4000 * t.val + p.val, by have ht : t.val < 25 := lt_of_lt_of_eq t.isLt N_2; have := p.isLt; omega⟩

/-- The first input's block at point t is rows 4000 t … 4000 t + 3999 of its array. -/
theorem rows2_0 (c : Dev nD) (t : Fin cfg2.N) :
    Rows (rowOf2 t) (iblk2 V c 0 t : Vec Ideal S4000x128 .f32) (V c main_v52 : FVec Ideal S100000x128 .f32) := fun p k => by
  obtain ⟨e0, e1, -⟩ := idx_facts2 t
  show V c main_v52 (((cfg2.win 0).blk t).view.emb (ix2 p k)) = V c main_v52 (ix2 (rowOf2 t p) k)
  refine congrArg (V c main_v52) (funext fun a => Fin.ext ?_)
  match a with
  | ⟨0, _⟩ => show win2_0.index t (0 : Fin 2) * 4000 + 1 * p.val = 4000 * t.val + p.val; rw [e0]; omega
  | ⟨1, _⟩ => show win2_0.index t (1 : Fin 2) * 128 + 1 * k.val = k.val; rw [e1]; omega

/-- The second input's block likewise. -/
theorem rows2_1 (c : Dev nD) (t : Fin cfg2.N) :
    Rows (rowOf2 t) (iblk2 V c 1 t : Vec Ideal S4000x128 .f32) (V c main_v40 : FVec Ideal S100000x128 .f32) := fun p k => by
  obtain ⟨-, -, e0, e1, -⟩ := idx_facts2 t
  show V c main_v40 (((cfg2.win 1).blk t).view.emb (ix2 p k)) = V c main_v40 (ix2 (rowOf2 t p) k)
  refine congrArg (V c main_v40) (funext fun a => Fin.ext ?_)
  match a with
  | ⟨0, _⟩ => show win2_1.index t (0 : Fin 2) * 4000 + 1 * p.val = 4000 * t.val + p.val; rw [e0]; omega
  | ⟨1, _⟩ => show win2_1.index t (1 : Fin 2) * 128 + 1 * k.val = k.val; rw [e1]; omega

/-- The weight blocks are the weight arrays, whole. -/
theorem whole2_2 (c : Dev nD) (t : Fin cfg2.N) : (iblk2 V c 2 t : Vec Ideal S128x40 .f32) = V c main_v53 := funext fun y => by
  obtain ⟨-, -, -, -, e0, e1, -⟩ := idx_facts2 t
  show V c main_v53 (((cfg2.win 2).blk t).view.emb y) = V c main_v53 y
  refine congrArg (V c main_v53) (funext fun a => Fin.ext ?_)
  match a with
  | ⟨0, _⟩ => show win2_2.index t (0 : Fin 2) * 128 + 1 * (y 0).val = (y 0).val; rw [e0]; omega
  | ⟨1, _⟩ => show win2_2.index t (1 : Fin 2) * 40 + 1 * (y 1).val = (y 1).val; rw [e1]; omega

theorem whole2_3 (c : Dev nD) (t : Fin cfg2.N) : (iblk2 V c 3 t : Vec Ideal S128x40 .f32) = V c main_v54 := funext fun y => by
  obtain ⟨-, -, -, -, -, -, e0, e1, -⟩ := idx_facts2 t
  show V c main_v54 (((cfg2.win 3).blk t).view.emb y) = V c main_v54 y
  refine congrArg (V c main_v54) (funext fun a => Fin.ext ?_)
  match a with
  | ⟨0, _⟩ => show win2_3.index t (0 : Fin 2) * 128 + 1 * (y 0).val = (y 0).val; rw [e0]; omega
  | ⟨1, _⟩ => show win2_3.index t (1 : Fin 2) * 40 + 1 * (y 1).val = (y 1).val; rw [e1]; omega

/-- The bias block is the bias row, whole. -/
theorem whole2_4 (c : Dev nD) (t : Fin cfg2.N) : (iblk2 V c 4 t : Vec Ideal S1x40 .f32) = V c main_v55 := funext fun y => by
  obtain ⟨-, -, -, -, -, -, -, -, e0, e1, -⟩ := idx_facts2 t
  show V c main_v55 (((cfg2.win 4).blk t).view.emb y) = V c main_v55 y
  refine congrArg (V c main_v55) (funext fun a => Fin.ext ?_)
  match a with
  | ⟨0, _⟩ => show win2_4.index t (0 : Fin 2) * 1 + 1 * (y 0).val = (y 0).val; rw [e0]; omega
  | ⟨1, _⟩ => show win2_4.index t (1 : Fin 2) * 40 + 1 * (y 1).val = (y 1).val; rw [e1]; omega

/-- The layer on whole arrays, at the region's entry contents. -/
abbrev layer2 (c : Dev nD) (b : FVec Ideal S40 .f32) : FVec Ideal S100000x40 .f32 :=
  Whole.logSoftmax hf_rt hf_u hf_bs hf_b0 hf_bc (Whole.combine hf_b1_40 hf_b01_40 (V c main_v52) (V c main_v40) (V c main_v53) (V c main_v54) b)

/-- What point t writes back is block t of the whole-array layer. -/
theorem flushed2_eq (c : Dev nD) (b : FVec Ideal S40 .f32)
    (hb : ∀ j : Fin 40, (V c main_v55 : FVec Ideal S1x40 .f32) (ix2 (0 : Fin 1) j) = b (ix1 j)) (t : Fin cfg2.N) :
    (dat2 V c).flushed 5 t = ((cfg2.win 5).blk t).view.read (Elt Ideal) (layer2 V c b) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128x40) hz2, View.ld_unit_zero (S := S1x40) hz2]
  rw [whole2_2, whole2_3, whole2_4]
  obtain ⟨-, -, -, -, -, -, -, -, -, -, e0, e1⟩ := idx_facts2 t
  funext j
  obtain ⟨p, q, rfl⟩ : ∃ (p : Fin 4000) (q : Fin 40), j = ix2 p q := ⟨j 0, j 1, eq_ix2 j⟩
  refine (pay2_rows (iblk2 V c 0 t) (iblk2 V c 1 t) (V c main_v53) (V c main_v54) (V c main_v55) (V c main_v52) (V c main_v40) b hf_b1_40 hf_b01_40 hf_rt hf_red hf_u hf_bs hf_b0 hf_bc (rows2_0 V c t) (rows2_1 V c t) hb p q).trans ?_
  show layer2 V c b (ix2 (rowOf2 t p) q) = layer2 V c b (((cfg2.win 5).blk t).view.emb (ix2 p q))
  refine congrArg (layer2 V c b) (funext fun a => Fin.ext ?_)
  match a with
  | ⟨0, _⟩ => show 4000 * t.val + p.val = win2_5.index t (0 : Fin 2) * 4000 + 1 * p.val; rw [e0]; omega
  | ⟨1, _⟩ => show q.val = win2_5.index t (1 : Fin 2) * 40 + 1 * q.val; rw [e1]; omega

/-- An index of the output array is in point t's block iff each coordinate is in the block's range on its axis. -/
theorem mem_blk2 (t : Fin cfg2.N) (i : S100000x40.Idx) :
    i ∈ ((cfg2.win 5).blk t).view.set ↔ ∀ a : Fin 2, win2_5.index t a * S4000x40.size a ≤ (i a).val ∧ (i a).val < win2_5.index t a * S4000x40.size a + S4000x40.size a := by
  show i ∈ ((View.whole main_v56).slice (win2_5.rect t)).set ↔ _
  rw [View.set_slice_whole, Rect.mem_set_unit]
  exact Iff.rfl

/-- The 25 blocks of 4000 rows cover the output array: row r is in the block of point r / 4000. -/
theorem cover2 (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  refine ⟨⟨(i 0).val / 4000, by rw [show cfg2.N = 25 from N_2]; omega⟩, flush2_5 _, ?_⟩
  rw [mem_blk2]
  obtain ⟨-, -, -, -, -, -, -, -, -, -, e0, e1⟩ := idx_facts2 ⟨(i 0).val / 4000, by rw [show cfg2.N = 25 from N_2]; omega⟩
  intro a
  match a with
  | ⟨0, _⟩ =>
    show win2_5.index _ (0 : Fin 2) * 4000 ≤ (i 0).val ∧ (i 0).val < win2_5.index _ (0 : Fin 2) * 4000 + 4000
    rw [e0]; show (i 0).val / 4000 * 4000 ≤ (i 0).val ∧ (i 0).val < (i 0).val / 4000 * 4000 + 4000; omega
  | ⟨1, _⟩ =>
    show win2_5.index _ (1 : Fin 2) * 40 ≤ (i 1).val ∧ (i 1).val < win2_5.index _ (1 : Fin 2) * 40 + 40
    rw [e1]; omega

/-- The output array after the region: the whole-array layer of the region's entry contents. -/
theorem final2 (c : Dev nD) (b : FVec Ideal S40 .f32)
    (hb : ∀ j : Fin 40, (V c main_v55 : FVec Ideal S1x40 .f32) (ix2 (0 : Fin 1) j) = b (ix1 j)) :
    (dat2 V c).arrAt 5 cfg2.N = layer2 V c b :=
  (dat2 V c).arrAt_eq_of_cover 5 (layer2 V c b) (fun t _ => flushed2_eq V c b hb t) (cover2)

end Region2

end Cert.KernelIdeal.Layers

end
-- ==== Proof.Network.lean ====
/-
  The three-layer network as one function of the twelve argument arrays, in the host's operations over whole arrays.

  deg(i) counts the edges whose destination is node i; inv = 1 / max(deg, 1) as a column. One aggregation step gathers
  the source node's features along every edge, adds them into the destination node's row, and scales row i by inv(i).
  A layer is agg(h) · Wlᵀ + h · Wrᵀ + b; after layers one and two comes max(·, 0), after layer three the logarithm of
  each row's softmax. The kernel's program and the reference both compute this function; here it is written once,
  at any float instance.
-/
import proofs.«160076_j23596550324897_1_alg».proof.KernelIdeal
import proofs.«160076_j23596550324897_1_alg».proof.Proof.Gen.KernelIdeal
import proofs.«160076_j23596550324897_1_alg».proof.Proof.LibRowSoftmax
import proofs.«160076_j23596550324897_1_alg».proof.Proof.HostFacts

noncomputable section

namespace Cert.KernelIdeal.Layers

open Cert.KernelIdeal Cert.KernelIdeal.Facts₀ Idealize.ShloMosaic Idealize.ShloMosaic.TcCoe RowLayers

variable {F : FTy → Type} [FloatOps F]

/-- The edge list's end points, the node features, a weight matrix and a bias vector as buffer contents. -/
abbrev Edges (F : FTy → Type) := (⟨S1600000, .i32⟩ : BufTy).Contents (Elt F)
abbrev Feat (F : FTy → Type) := (⟨S100000x128, .f32⟩ : BufTy).Contents (Elt F)

/-- 1 / max(deg, 1) as a column: deg by adding a one into the destination's entry for every edge. -/
def invDeg (dst : Edges F) : (⟨S100000x1, .f32⟩ : BufTy).Contents (Elt F) :=
  broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))))

/-- One mean aggregation: gather h at the (wrapped) source of every edge, add into the destination's row, scale row i by inv(i). -/
def aggregate (h : Feat F) (src dst : Edges F) (inv : (⟨S100000x1, .f32⟩ : BufTy).Contents (Elt F)) : Feat F :=
  mulf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 inv)

/-- A hidden layer: max(agg(h) · Wlᵀ + h · Wrᵀ + b, 0). -/
def hidden (h : Feat F) (src dst : Edges F) (wl wr : (⟨S128x128, .f32⟩ : BufTy).Contents (Elt F)) (b : (⟨S128, .f32⟩ : BufTy).Contents (Elt F)) : Feat F :=
  Whole.relu hf_bz_128 (Whole.combine hf_b1_128 hf_b01_128 (aggregate h src dst (invDeg dst)) h
    (transpose S128x128 [1, 0] wl transposes_S128x128_S128x128_1_0) (transpose S128x128 [1, 0] wr transposes_S128x128_S128x128_1_0) b)

/-- The last layer: the logarithm of the row softmax of agg(h) · Wlᵀ + h · Wrᵀ + b. -/
def lastLayer (h : Feat F) (src dst : Edges F) (wl wr : (⟨S40x128, .f32⟩ : BufTy).Contents (Elt F)) (b : (⟨S40, .f32⟩ : BufTy).Contents (Elt F)) :
    (⟨S100000x40, .f32⟩ : BufTy).Contents (Elt F) :=
  Whole.logSoftmax hf_rt hf_u hf_bs hf_b0 hf_bc (Whole.combine hf_b1_40 hf_b01_40 (aggregate h src dst (invDeg dst)) h
    (transpose S128x40 [1, 0] wl transposes_S40x128_S128x40_1_0) (transpose S128x40 [1, 0] wr transposes_S40x128_S128x40_1_0) b)

/-- The network: three layers over the same graph. -/
def network (x : Feat F) (src dst : Edges F) (wl0 wr0 : (⟨S128x128, .f32⟩ : BufTy).Contents (Elt F)) (b0 : (⟨S128, .f32⟩ : BufTy).Contents (Elt F))
    (wl1 wr1 : (⟨S128x128, .f32⟩ : BufTy).Contents (Elt F)) (b1 : (⟨S128, .f32⟩ : BufTy).Contents (Elt F))
    (wl2 wr2 : (⟨S40x128, .f32⟩ : BufTy).Contents (Elt F)) (b2 : (⟨S40, .f32⟩ : BufTy).Contents (Elt F)) :
    (⟨S100000x40, .f32⟩ : BufTy).Contents (Elt F) :=
  lastLayer (hidden (hidden x src dst wl0 wr0 b0) src dst wl1 wr1 b1) src dst wl2 wr2 b2

end Cert.KernelIdeal.Layers

end
-- ==== Proof.KernelValue.lean ====
/-
  What the kernel's program leaves in its result buffer: the network of the argument arrays.

  The program's buffer contents are followed from the launch through the three stretches of host operations and the
  three regions. A stretch of host operations computes its results as the operations' functions of what the stretch
  found; a region leaves its output array at the whole-array layer of what the region found, and touches no other
  buffer. Reading the result buffer back through this chain gives the three layers composed: the network.
-/
import proofs.«160076_j23596550324897_1_alg».proof.Proof.Gen.KernelIdeal.Frame
import proofs.«160076_j23596550324897_1_alg».proof.Proof.Region0
import proofs.«160076_j23596550324897_1_alg».proof.Proof.Region1
import proofs.«160076_j23596550324897_1_alg».proof.Proof.Region2
import proofs.«160076_j23596550324897_1_alg».proof.Proof.Network
import Idealize.ShloMosaic.Lib.StableHlo.Run
import Idealize.ShloMosaic.Lib.ValueLayout

set_option maxRecDepth 16384

noncomputable section

namespace Cert.KernelIdeal.Layers

open Cert.KernelIdeal Cert.KernelIdeal.Gen Idealize.ShloMosaic Idealize.ShloMosaic.TcCoe Idealize.ShloMosaic.ValueIdx RowLayers
open Idealize.SL.Sem Idealize.ShloMosaic.StableHlo

variable (m : (ℓ : Loc nD τ sig) → Buf (Elt Ideal) ℓ) (ρ : Dev nD → PrngReg)

/-- No operation of the three host stretches writes the buffer in question: each operation's written buffer is another one. -/
macro "unwritten" : tactic => `(tactic| (
  refine List.forall_iff_forall_mem.mp ?_
  simp only [hostOps0, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Buffers that reach a later stretch unchanged -/

/-- Before the second stretch an argument buffer that the first region does not write still holds its launch contents. -/
theorem W2_arg (c : Dev nD) (b : Ref sig .tc) (hr : ∀ w, Pipeline.arrRef spec0 w ≠ b)
    (h0 : ∀ op ∈ (hostOps0 : List (HloOp τ sig (Elt Ideal))), Proc.devRef .tc b ∉ op.writes) :
    W2 m ρ c (Proc.devRef .tc b) = m ((c : Thread nD τ).loc b) :=
  (W2_of_ne m ρ c b hr).trans (StableHlo.after_of_forall_not_mem _ _ h0)

/-- Before the third stretch likewise, for a buffer neither region writes. -/
theorem W4_arg (c : Dev nD) (b : Ref sig .tc) (hr0 : ∀ w, Pipeline.arrRef spec0 w ≠ b) (hr1 : ∀ w, Pipeline.arrRef spec1 w ≠ b)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes) :
    W4 m ρ c (Proc.devRef .tc b) = m ((c : Thread nD τ).loc b) :=
  ((W4_of_ne m ρ c b hr1).trans (StableHlo.after_of_forall_not_mem _ _ h1)).trans (W2_arg m ρ c b hr0 h0)

theorem W2_arg1 (c : Dev nD) : W2 m ρ c (Proc.devRef .tc main_arg1) = m ((c : Thread nD τ).loc main_arg1) := W2_arg m ρ c main_arg1 (by decide) (by unwritten)
theorem W2_arg2 (c : Dev nD) : W2 m ρ c (Proc.devRef .tc main_arg2) = m ((c : Thread nD τ).loc main_arg2) := W2_arg m ρ c main_arg2 (by decide) (by unwritten)
theorem W2_arg6 (c : Dev nD) : W2 m ρ c (Proc.devRef .tc main_arg6) = m ((c : Thread nD τ).loc main_arg6) := W2_arg m ρ c main_arg6 (by decide) (by unwritten)
theorem W2_arg7 (c : Dev nD) : W2 m ρ c (Proc.devRef .tc main_arg7) = m ((c : Thread nD τ).loc main_arg7) := W2_arg m ρ c main_arg7 (by decide) (by unwritten)
theorem W2_arg8 (c : Dev nD) : W2 m ρ c (Proc.devRef .tc main_arg8) = m ((c : Thread nD τ).loc main_arg8) := W2_arg m ρ c main_arg8 (by decide) (by unwritten)
theorem W4_arg1 (c : Dev nD) : W4 m ρ c (Proc.devRef .tc main_arg1) = m ((c : Thread nD τ).loc main_arg1) := W4_arg m ρ c main_arg1 (by decide) (by decide) (by unwritten) (by unwritten)
theorem W4_arg2 (c : Dev nD) : W4 m ρ c (Proc.devRef .tc main_arg2) = m ((c : Thread nD τ).loc main_arg2) := W4_arg m ρ c main_arg2 (by decide) (by decide) (by unwritten) (by unwritten)
theorem W4_arg9 (c : Dev nD) : W4 m ρ c (Proc.devRef .tc main_arg9) = m ((c : Thread nD τ).loc main_arg9) := W4_arg m ρ c main_arg9 (by decide) (by decide) (by unwritten) (by unwritten)
theorem W4_arg10 (c : Dev nD) : W4 m ρ c (Proc.devRef .tc main_arg10) = m ((c : Thread nD τ).loc main_arg10) := W4_arg m ρ c main_arg10 (by decide) (by decide) (by unwritten) (by unwritten)
theorem W4_arg11 (c : Dev nD) : W4 m ρ c (Proc.devRef .tc main_arg11) = m ((c : Thread nD τ).loc main_arg11) := W4_arg m ρ c main_arg11 (by decide) (by decide) (by unwritten) (by unwritten)

/-- The first stretch leaves 1 / max(deg, 1), as a column, in its buffer. -/
theorem W1_inv (c : Dev nD) : W1 m ρ c (Proc.devRef .tc main_v8) = invDeg (m ((c : Thread nD τ).loc main_arg2)) := by
  unfold invDeg
  show StableHlo.after hostOps0 (W0 m ρ c) (Proc.devRef .tc main_v8) = _
  dsimp only [hostOps0]
  after_results_simp <;> rfl

/-- That column reaches the second stretch … -/
theorem W2_inv (c : Dev nD) : W2 m ρ c (Proc.devRef .tc main_v8) = invDeg (m ((c : Thread nD τ).loc main_arg2)) :=
  (W2_of_ne m ρ c main_v8 (by decide)).trans (W1_inv m ρ c)

/-- … and the third. -/
theorem W4_inv (c : Dev nD) : W4 m ρ c (Proc.devRef .tc main_v8) = invDeg (m ((c : Thread nD τ).loc main_arg2)) :=
  ((W4_of_ne m ρ c main_v8 (by decide)).trans (StableHlo.after_of_forall_not_mem _ _ (by unwritten))).trans (W2_inv m ρ c)

/-! ## Layer one -/

set_option maxHeartbeats 2000000 in
/-- The first region finds the aggregated node features in its first operand. -/
theorem V1_agg (c : Dev nD) : V1 m ρ c main_v20 = aggregate (m ((c : Thread nD τ).loc main_arg0)) (m ((c : Thread nD τ).loc main_arg1))
    (m ((c : Thread nD τ).loc main_arg2)) (invDeg (m ((c : Thread nD τ).loc main_arg2))) := by
  unfold aggregate invDeg
  show StableHlo.after hostOps0 (W0 m ρ c) (Proc.devRef .tc main_v20) = _
  dsimp only [hostOps0]
  after_results_simp <;> rfl

theorem V1_x (c : Dev nD) : V1 m ρ c main_arg0 = m ((c : Thread nD τ).loc main_arg0) :=
  StableHlo.after_of_forall_not_mem (b := Proc.devRef .tc main_arg0) _ _ (by unwritten)

theorem V1_wl (c : Dev nD) : V1 m ρ c main_v21 = transpose S128x128 [1, 0] (m ((c : Thread nD τ).loc main_arg3)) transposes_S128x128_S128x128_1_0 := by
  show StableHlo.after hostOps0 (W0 m ρ c) (Proc.devRef .tc main_v21) = _
  dsimp only [hostOps0]
  after_results_simp <;> rfl

theorem V1_wr (c : Dev nD) : V1 m ρ c main_v22 = transpose S128x128 [1, 0] (m ((c : Thread nD τ).loc main_arg4)) transposes_S128x128_S128x128_1_0 := by
  show StableHlo.after hostOps0 (W0 m ρ c) (Proc.devRef .tc main_v22) = _
  dsimp only [hostOps0]
  after_results_simp <;> rfl

/-- The bias row the first region finds is the bias vector cast to one row. -/
theorem V1_b (c : Dev nD) (j : Fin 128) : (V1 m ρ c main_v23 : FVec Ideal S1x128 .f32) (ix2 (0 : Fin 1) j) = (m ((c : Thread nD τ).loc main_arg5) : FVec Ideal S128 .f32) (ix1 j) := by
  have e : (V1 m ρ c main_v23 : FVec Ideal S1x128 .f32) = shapeCast S1x128 (m ((c : Thread nD τ).loc main_arg5) : FVec Ideal S128 .f32) shapeCasts_S128_S1x128 := by
    show StableHlo.after hostOps0 (W0 m ρ c) (Proc.devRef .tc main_v23) = _
    dsimp only [hostOps0]
    after_results_simp <;> rfl
  rw [e, shapeCast_a_1a_apply]

/-- The first hidden layer's array, after the first region. -/
theorem hidden1_eq (c : Dev nD) : (dat0 (V1 m ρ) c).arrAt 5 cfg0.N
    = hidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [final0 (V1 m ρ) c (m ((c : Thread nD τ).loc main_arg5)) (V1_b m ρ c)]
  unfold layer0 hidden
  rw [V1_agg, V1_x, V1_wl, V1_wr]

/-! ## Layer two -/

/-- The first hidden layer's array as the later stretches find it. -/
abbrev H1 (c : Dev nD) : Feat Ideal :=
  hidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem W2_h1 (c : Dev nD) : W2 m ρ c (Proc.devRef .tc main_v24) = H1 m c :=
  (W2_arr m ρ c 5).trans (hidden1_eq m ρ c)

theorem V3_agg (c : Dev nD) : V3 m ρ c main_v36 = aggregate (H1 m c) (m ((c : Thread nD τ).loc main_arg1))
    (m ((c : Thread nD τ).loc main_arg2)) (invDeg (m ((c : Thread nD τ).loc main_arg2))) := by
  have e : V3 m ρ c main_v36 = aggregate (W2 m ρ c (Proc.devRef .tc main_v24)) (W2 m ρ c (Proc.devRef .tc main_arg1))
      (W2 m ρ c (Proc.devRef .tc main_arg2)) (W2 m ρ c (Proc.devRef .tc main_v8)) := by
    unfold aggregate
    show StableHlo.after hostOps1 (W2 m ρ c) (Proc.devRef .tc main_v36) = _
    dsimp only [hostOps1]
    after_results_simp <;> rfl
  rw [e, W2_h1, W2_arg1, W2_arg2, W2_inv]

theorem V3_x (c : Dev nD) : V3 m ρ c main_v24 = H1 m c :=
  (StableHlo.after_of_forall_not_mem (b := Proc.devRef .tc main_v24) _ _ (by unwritten)).trans (W2_h1 m ρ c)

theorem V3_wl (c : Dev nD) : V3 m ρ c main_v37 = transpose S128x128 [1, 0] (m ((c : Thread nD τ).loc main_arg6)) transposes_S128x128_S128x128_1_0 := by
  have e : V3 m ρ c main_v37 = transpose S128x128 [1, 0] (W2 m ρ c (Proc.devRef .tc main_arg6)) transposes_S128x128_S128x128_1_0 := by
    show StableHlo.after hostOps1 (W2 m ρ c) (Proc.devRef .tc main_v37) = _
    dsimp only [hostOps1]
    after_results_simp <;> rfl
  rw [e, W2_arg6]

theorem V3_wr (c : Dev nD) : V3 m ρ c main_v38 = transpose S128x128 [1, 0] (m ((c : Thread nD τ).loc main_arg7)) transposes_S128x128_S128x128_1_0 := by
  have e : V3 m ρ c main_v38 = transpose S128x128 [1, 0] (W2 m ρ c (Proc.devRef .tc main_arg7)) transposes_S128x128_S128x128_1_0 := by
    show StableHlo.after hostOps1 (W2 m ρ c) (Proc.devRef .tc main_v38) = _
    dsimp only [hostOps1]
    after_results_simp <;> rfl
  rw [e, W2_arg7]

theorem V3_b (c : Dev nD) (j : Fin 128) : (V3 m ρ c main_v39 : FVec Ideal S1x128 .f32) (ix2 (0 : Fin 1) j) = (m ((c : Thread nD τ).loc main_arg8) : FVec Ideal S128 .f32) (ix1 j) := by
  have e : (V3 m ρ c main_v39 : FVec Ideal S1x128 .f32) = shapeCast S1x128 (W2 m ρ c (Proc.devRef .tc main_arg8) : FVec Ideal S128 .f32) shapeCasts_S128_S1x128 := by
    show StableHlo.after hostOps1 (W2 m ρ c) (Proc.devRef .tc main_v39) = _
    dsimp only [hostOps1]
    after_results_simp <;> rfl
  rw [e, shapeCast_a_1a_apply, W2_arg8]

/-- The second hidden layer's array, after the second region. -/
abbrev H2 (c : Dev nD) : Feat Ideal :=
  hidden (H1 m c) (m ((c : Thread nD τ).loc main_arg1)) (m ((c : Thread nD τ).loc main_arg2))
    (m ((c : Thread nD τ).loc main_arg6)) (m ((c : Thread nD τ).loc main_arg7)) (m ((c : Thread nD τ).loc main_arg8))

theorem hidden2_eq (c : Dev nD) : (dat1 (V3 m ρ) c).arrAt 5 cfg1.N = H2 m c := by
  rw [final1 (V3 m ρ) c (m ((c : Thread nD τ).loc main_arg8)) (V3_b m ρ c)]
  unfold layer1 H2 hidden
  rw [V3_agg, V3_x, V3_wl, V3_wr]

/-! ## Layer three -/

theorem W4_h2 (c : Dev nD) : W4 m ρ c (Proc.devRef .tc main_v40) = H2 m c :=
  (W4_arr m ρ c 5).trans (hidden2_eq m ρ c)

theorem V5_agg (c : Dev nD) : V5 m ρ c main_v52 = aggregate (H2 m c) (m ((c : Thread nD τ).loc main_arg1))
    (m ((c : Thread nD τ).loc main_arg2)) (invDeg (m ((c : Thread nD τ).loc main_arg2))) := by
  have e : V5 m ρ c main_v52 = aggregate (W4 m ρ c (Proc.devRef .tc main_v40)) (W4 m ρ c (Proc.devRef .tc main_arg1))
      (W4 m ρ c (Proc.devRef .tc main_arg2)) (W4 m ρ c (Proc.devRef .tc main_v8)) := by
    unfold aggregate
    show StableHlo.after hostOps2 (W4 m ρ c) (Proc.devRef .tc main_v52) = _
    dsimp only [hostOps2]
    after_results_simp <;> rfl
  rw [e, W4_h2, W4_arg1, W4_arg2, W4_inv]

theorem V5_x (c : Dev nD) : V5 m ρ c main_v40 = H2 m c :=
  (StableHlo.after_of_forall_not_mem (b := Proc.devRef .tc main_v40) _ _ (by unwritten)).trans (W4_h2 m ρ c)

theorem V5_wl (c : Dev nD) : V5 m ρ c main_v53 = transpose S128x40 [1, 0] (m ((c : Thread nD τ).loc main_arg9)) transposes_S40x128_S128x40_1_0 := by
  have e : V5 m ρ c main_v53 = transpose S128x40 [1, 0] (W4 m ρ c (Proc.devRef .tc main_arg9)) transposes_S40x128_S128x40_1_0 := by
    show StableHlo.after hostOps2 (W4 m ρ c) (Proc.devRef .tc main_v53) = _
    dsimp only [hostOps2]
    after_results_simp <;> rfl
  rw [e, W4_arg9]

theorem V5_wr (c : Dev nD) : V5 m ρ c main_v54 = transpose S128x40 [1, 0] (m ((c : Thread nD τ).loc main_arg10)) transposes_S40x128_S128x40_1_0 := by
  have e : V5 m ρ c main_v54 = transpose S128x40 [1, 0] (W4 m ρ c (Proc.devRef .tc main_arg10)) transposes_S40x128_S128x40_1_0 := by
    show StableHlo.after hostOps2 (W4 m ρ c) (Proc.devRef .tc main_v54) = _
    dsimp only [hostOps2]
    after_results_simp <;> rfl
  rw [e, W4_arg10]

theorem V5_b (c : Dev nD) (j : Fin 40) : (V5 m ρ c main_v55 : FVec Ideal S1x40 .f32) (ix2 (0 : Fin 1) j) = (m ((c : Thread nD τ).loc main_arg11) : FVec Ideal S40 .f32) (ix1 j) := by
  have e : (V5 m ρ c main_v55 : FVec Ideal S1x40 .f32) = shapeCast S1x40 (W4 m ρ c (Proc.devRef .tc main_arg11) : FVec Ideal S40 .f32) shapeCasts_S40_S1x40 := by
    show StableHlo.after hostOps2 (W4 m ρ c) (Proc.devRef .tc main_v55) = _
    dsimp only [hostOps2]
    after_results_simp <;> rfl
  rw [e, shapeCast_a_1a_apply, W4_arg11]

/-- The result buffer after the last region: the network of the launch contents of the twelve arguments. -/
theorem result_eq (c : Dev nD) : W6 m ρ c (Proc.devRef .tc main_v56)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ?_
  rw [final2 (V5 m ρ) c (m ((c : Thread nD τ).loc main_arg11)) (V5_b m ρ c)]
  unfold layer2 network lastLayer
  rw [V5_agg, V5_x, V5_wl, V5_wr]

end Cert.KernelIdeal.Layers

end
-- ==== Proof.RefRun.lean ====
/-
  What the reference's program leaves in its result buffer: the network of its argument arrays.

  The reference is one straight line of 103 host operations, so after it every buffer holds the fold of the operations'
  results over the launch contents. The line is read in four chunks (the three network layers, the last one's softmax apart): after a chunk its
  result buffer holds the layer of what the chunk found, and the buffers the next chunk reads besides (the edge list, the
  weights and biases, the column 1 / max(deg, 1)) hold what they held.
-/
import proofs.«160076_j23596550324897_1_alg».proof.Proof.RefOps
import proofs.«160076_j23596550324897_1_alg».proof.Proof.Network
import Idealize.ShloMosaic.Lib.StableHlo.Run
import Idealize.ShloMosaic.Lib.Pipeline.Frame

set_option maxRecDepth 65536

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo
open RowLayers
open Cert.KernelIdeal.Layers (network lastLayer aggregate invDeg hf_bz_128 hf_b1_128 hf_b01_128 hf_b1_40 hf_b01_40 hf_rt hf_u hf_bs hf_b0 hf_bc)

variable {F : FTy → Type} [FloatOps F] (V : Valuation τ sig (Elt F))

/-! ## The first chunk -/

/-- Contents carried to a buffer's own type and back are the contents. -/
theorem ofBuf_toBuf {T : BufTy} (x : TRef sig T) (v : T.Contents (Elt F)) : x.ofBuf (x.toBuf v) = v := by
  unfold TRef.ofBuf TRef.toBuf
  rw [cast_cast, cast_eq]

set_option maxHeartbeats 4000000 in
/-- After the first chunk the first layer's buffer holds the first hidden layer of the arguments. -/
theorem A_hidden : after opsA V (Proc.devRef .tc main_v29)
    = Cert.KernelIdeal.Layers.hidden (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold Cert.KernelIdeal.Layers.hidden aggregate invDeg
  dsimp only [opsA]
  after_results_simp <;> (try simp only [ofBuf_toBuf]) <;> rfl

/-- … and the column 1 / max(deg, 1) is in its buffer. -/
theorem A_inv : after opsA V (Proc.devRef .tc main_v8) = invDeg (V (Proc.devRef .tc main_arg2)) := by
  unfold invDeg
  dsimp only [opsA]
  after_results_simp <;> rfl

theorem A_main_arg1 : after opsA V (Proc.devRef .tc main_arg1) = V (Proc.devRef .tc main_arg1) := by
  dsimp only [opsA]
  after_results_simp <;> rfl

theorem A_main_arg2 : after opsA V (Proc.devRef .tc main_arg2) = V (Proc.devRef .tc main_arg2) := by
  dsimp only [opsA]
  after_results_simp <;> rfl

theorem A_main_arg6 : after opsA V (Proc.devRef .tc main_arg6) = V (Proc.devRef .tc main_arg6) := by
  dsimp only [opsA]
  after_results_simp <;> rfl

theorem A_main_arg7 : after opsA V (Proc.devRef .tc main_arg7) = V (Proc.devRef .tc main_arg7) := by
  dsimp only [opsA]
  after_results_simp <;> rfl

theorem A_main_arg8 : after opsA V (Proc.devRef .tc main_arg8) = V (Proc.devRef .tc main_arg8) := by
  dsimp only [opsA]
  after_results_simp <;> rfl

theorem A_main_arg9 : after opsA V (Proc.devRef .tc main_arg9) = V (Proc.devRef .tc main_arg9) := by
  dsimp only [opsA]
  after_results_simp <;> rfl

theorem A_main_arg10 : after opsA V (Proc.devRef .tc main_arg10) = V (Proc.devRef .tc main_arg10) := by
  dsimp only [opsA]
  after_results_simp <;> rfl

theorem A_main_arg11 : after opsA V (Proc.devRef .tc main_arg11) = V (Proc.devRef .tc main_arg11) := by
  dsimp only [opsA]
  after_results_simp <;> rfl

/-! ## The second chunk -/

set_option maxHeartbeats 4000000 in
/-- After the second chunk the second layer's buffer holds the hidden layer of what the chunk found. -/
theorem B_hidden : after opsB V (Proc.devRef .tc main_v50)
    = Whole.relu hf_bz_128 (Whole.combine hf_b1_128 hf_b01_128 (aggregate (V (Proc.devRef .tc main_v29)) (V (Proc.devRef .tc main_arg1)) (V (Proc.devRef .tc main_arg2)) (V (Proc.devRef .tc main_v8))) (V (Proc.devRef .tc main_v29))
        (transpose Cert.KernelIdeal.S128x128 [1, 0] (V (Proc.devRef .tc main_arg6)) transposes_S128x128_S128x128_1_0) (transpose Cert.KernelIdeal.S128x128 [1, 0] (V (Proc.devRef .tc main_arg7)) transposes_S128x128_S128x128_1_0) (V (Proc.devRef .tc main_arg8))) := by
  unfold aggregate
  dsimp only [opsB]
  after_results_simp <;> (try simp only [ofBuf_toBuf]) <;> rfl

theorem B_main_arg1 : after opsB V (Proc.devRef .tc main_arg1) = V (Proc.devRef .tc main_arg1) := by
  dsimp only [opsB]
  after_results_simp <;> rfl

theorem B_main_arg2 : after opsB V (Proc.devRef .tc main_arg2) = V (Proc.devRef .tc main_arg2) := by
  dsimp only [opsB]
  after_results_simp <;> rfl

theorem B_main_arg9 : after opsB V (Proc.devRef .tc main_arg9) = V (Proc.devRef .tc main_arg9) := by
  dsimp only [opsB]
  after_results_simp <;> rfl

theorem B_main_arg10 : after opsB V (Proc.devRef .tc main_arg10) = V (Proc.devRef .tc main_arg10) := by
  dsimp only [opsB]
  after_results_simp <;> rfl

theorem B_main_arg11 : after opsB V (Proc.devRef .tc main_arg11) = V (Proc.devRef .tc main_arg11) := by
  dsimp only [opsB]
  after_results_simp <;> rfl

theorem B_main_v8 : after opsB V (Proc.devRef .tc main_v8) = V (Proc.devRef .tc main_v8) := by
  dsimp only [opsB]
  after_results_simp <;> rfl

/-! ## The third chunk -/

set_option maxHeartbeats 4000000 in
/-- After the third chunk the last layer's products and bias are in their buffer. -/
theorem C_pre : after opsC V (Proc.devRef .tc main_v70)
    = Whole.combine hf_b1_40 hf_b01_40 (aggregate (V (Proc.devRef .tc main_v50)) (V (Proc.devRef .tc main_arg1)) (V (Proc.devRef .tc main_arg2)) (V (Proc.devRef .tc main_v8))) (V (Proc.devRef .tc main_v50))
        (transpose Cert.KernelIdeal.S128x40 [1, 0] (V (Proc.devRef .tc main_arg9)) transposes_S40x128_S128x40_1_0) (transpose Cert.KernelIdeal.S128x40 [1, 0] (V (Proc.devRef .tc main_arg10)) transposes_S40x128_S128x40_1_0) (V (Proc.devRef .tc main_arg11)) := by
  unfold aggregate
  dsimp only [opsC]
  after_results_simp <;> rfl

/-! ## The fourth chunk: the logarithm of the row softmax -/

/-- After the fourth chunk the result buffer holds the logarithm of the row softmax of what the chunk found. -/
theorem D_out : after opsD V (Proc.devRef .tc main_v71)
    = Whole.logSoftmax hf_rt hf_u hf_bs hf_b0 hf_bc (V (Proc.devRef .tc main_v70)) := by
  dsimp only [opsD]
  after_results_simp <;> (try simp only [ofBuf_toBuf]) <;> rfl

/-! ## The whole line -/

/-- After the whole line the result buffer holds the network of the launch contents of the twelve arguments. -/
theorem result_eq : after ops V (Proc.devRef .tc main_v71)
    = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_eq, after_append, after_append, after_append, D_out, C_pre, B_hidden,
    B_main_arg1, B_main_arg2, B_main_arg9, B_main_arg10, B_main_arg11, B_main_v8,
    A_hidden, A_inv, A_main_arg1, A_main_arg2, A_main_arg6, A_main_arg7, A_main_arg8, A_main_arg9, A_main_arg10, A_main_arg11]
  rfl

theorem kept_main_arg0 : after ops V (Proc.devRef .tc main_arg0) = V (Proc.devRef .tc main_arg0) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg1 : after ops V (Proc.devRef .tc main_arg1) = V (Proc.devRef .tc main_arg1) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg2 : after ops V (Proc.devRef .tc main_arg2) = V (Proc.devRef .tc main_arg2) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg3 : after ops V (Proc.devRef .tc main_arg3) = V (Proc.devRef .tc main_arg3) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg4 : after ops V (Proc.devRef .tc main_arg4) = V (Proc.devRef .tc main_arg4) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg5 : after ops V (Proc.devRef .tc main_arg5) = V (Proc.devRef .tc main_arg5) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg6 : after ops V (Proc.devRef .tc main_arg6) = V (Proc.devRef .tc main_arg6) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg7 : after ops V (Proc.devRef .tc main_arg7) = V (Proc.devRef .tc main_arg7) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg8 : after ops V (Proc.devRef .tc main_arg8) = V (Proc.devRef .tc main_arg8) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg9 : after ops V (Proc.devRef .tc main_arg9) = V (Proc.devRef .tc main_arg9) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg10 : after ops V (Proc.devRef .tc main_arg10) = V (Proc.devRef .tc main_arg10) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem kept_main_arg11 : after ops V (Proc.devRef .tc main_arg11) = V (Proc.devRef .tc main_arg11) :=
  after_of_forall_not_mem _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The reference's run, read: every weakly fair execution terminates with the result buffer at the network of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v71).trans (result_eq (launchContents m c)),
      (h c main_arg0).trans (kept_main_arg0 (launchContents m c)),
      (h c main_arg1).trans (kept_main_arg1 (launchContents m c)),
      (h c main_arg2).trans (kept_main_arg2 (launchContents m c)),
      (h c main_arg3).trans (kept_main_arg3 (launchContents m c)),
      (h c main_arg4).trans (kept_main_arg4 (launchContents m c)),
      (h c main_arg5).trans (kept_main_arg5 (launchContents m c)),
      (h c main_arg6).trans (kept_main_arg6 (launchContents m c)),
      (h c main_arg7).trans (kept_main_arg7 (launchContents m c)),
      (h c main_arg8).trans (kept_main_arg8 (launchContents m c)),
      (h c main_arg9).trans (kept_main_arg9 (launchContents m c)),
      (h c main_arg10).trans (kept_main_arg10 (launchContents m c)),
      (h c main_arg11).trans (kept_main_arg11 (launchContents m c))⟩)
    (run_seq scopedRefs_eq scopedSems_eq defs main (fun _ => ops) main_eq (fun _ => ops_sub) m ρ)

end Cert.ReferenceIdeal.RefValue

end
-- ==== Proof.lean ====
/-
  A three-layer mean-aggregating graph network (GraphSAGE), its dense "combine" step as a tiled kernel, against the
  same network written with whole-array operations.

  Both programs compute deg, 1 / max(deg, 1) and, three times, the mean aggregation of the current node features over
  the edge list with the same host operations. They differ in the combine step agg · Wlᵀ + h · Wrᵀ + b followed by
  max(·, 0) (layers one and two) or the logarithm of the row softmax (layer three): the reference applies whole-array
  products, broadcasts and reductions; the kernel's program runs a pallas_call over 25 blocks of 4000 rows, each block
  narrowing its operands (the identity on extended reals), multiplying on the matrix unit into a zero accumulator and
  reducing along the lanes. Every step of the combine reads, in row r of its result, row r of its matrix operands only,
  so each block of the kernel's result is the same rows of the whole-array result, and the 25 blocks tile the array.
  No algebraic law beyond this re-indexing is used, so the inputs' finiteness is never opened.

  The three frames: the two kernel programs' are the generated frame certificates; the reference's is its run with the
  result dropped. Nothing was rewritten by the idealization, so its preservation claim is trivial.
-/
import proofs.«160076_j23596550324897_1_alg».proof.Defs
import proofs.«160076_j23596550324897_1_alg».proof.Proof.Gen.Kernel
import proofs.«160076_j23596550324897_1_alg».proof.Proof.Gen.Kernel.Skeleton
import proofs.«160076_j23596550324897_1_alg».proof.Proof.Gen.Kernel.Launch
import proofs.«160076_j23596550324897_1_alg».proof.Proof.Gen.Kernel.Points
import proofs.«160076_j23596550324897_1_alg».proof.Proof.Gen.Kernel.Frame
import proofs.«160076_j23596550324897_1_alg».proof.Proof.Gen.KernelIdeal
import proofs.«160076_j23596550324897_1_alg».proof.Proof.Gen.KernelIdeal.Skeleton
import proofs.«160076_j23596550324897_1_alg».proof.Proof.Gen.KernelIdeal.Launch
import proofs.«160076_j23596550324897_1_alg».proof.Proof.Gen.KernelIdeal.Points
import proofs.«160076_j23596550324897_1_alg».proof.Proof.Gen.KernelIdeal.Frame
import proofs.«160076_j23596550324897_1_alg».proof.Proof.Gen.ReferenceIdeal
import proofs.«160076_j23596550324897_1_alg».proof.Proof.Gen.Pre_finite_inputs
import proofs.«160076_j23596550324897_1_alg».proof.Proof.KernelRun
import proofs.«160076_j23596550324897_1_alg».proof.Proof.KernelValue
import proofs.«160076_j23596550324897_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

/-- Both programs end with the network of the (agreeing) argument arrays in their result buffers. -/
theorem algebraic : Cert.algebraic_KernelIdeal_ReferenceIdeal := by
  intro m ρ m' ρ' _ hagree
  refine ⟨fun c => Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Layers.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
